-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x131072x128 : Shape := ⟨3, ![2, 131072, 128]⟩
abbrev S131072x128 : Shape := ⟨2, ![131072, 128]⟩
abbrev S128x128 : Shape := ⟨2, ![128, 128]⟩
abbrev S_ : Shape := ⟨0, ![]⟩

class Facts : Prop where
  bcast_S_S2x131072x128 : S_.BroadcastsInDim S2x131072x128 (![] : Fin 0 → Fin S2x131072x128.rank)
  reducesTo_S2x131072x128_S_d0_1_2 : S2x131072x128.ReducesTo [0, 1, 2] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128x128 .f32) (main_arg9 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x131072x128 .f32) (main_arg1 : FVec F S131072x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) : IVec S_ 1 :=
  let main_v0 : FVec F S2x131072x128 .f32 := Host.absf main_arg0
  let main_cst : FVec F S_ .f32 := constant S_ .f32 0x7F800000#32
  let main_v1 : FVec F S2x131072x128 .f32 := broadcastInDim S2x131072x128 ![] bcast_S_S2x131072x128 main_cst
  let main_v2 : IVec S2x131072x128 1 := cmpf .olt main_v0 main_v1
  let main_c : IVec S_ 1 := constantI S_ 1 1#1
  let main_v3 : IVec S_ 1 := (fun x v => Host.reduce IntOp.andi x v reducesTo_S2x131072x128_S_d0_1_2 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S2x131072x128 : Shape := ⟨3, ![2, 131072, 128]⟩
abbrev S131072x128 : Shape := ⟨2, ![131072, 128]⟩
abbrev S128x128 : Shape := ⟨2, ![128, 128]⟩
abbrev S128x512 : Shape := ⟨2, ![128, 512]⟩
abbrev S2x2048x128 : Shape := ⟨3, ![2, 2048, 128]⟩
abbrev S2048x128 : Shape := ⟨2, ![2048, 128]⟩
abbrev S1x2048x128 : Shape := ⟨3, ![1, 2048, 128]⟩
abbrev S2048x512 : Shape := ⟨2, ![2048, 512]⟩

abbrev nBuf : Space → Nat
  | .hbm => 13
  | .vmem => 8
  | .smem => 0
  | _ => 0

abbrev bufTy : (tb : Table) → Fin (tcTables nBuf tb) → BufTy
  | .hbm, ⟨0, _⟩ => ⟨S2x131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x512, .f32⟩
  | .hbm, ⟨11, _⟩ => ⟨S128x512, .f32⟩
  | .hbm, ⟨12, _⟩ => ⟨S2x131072x128, .f32⟩
  | .local _ .vmem, ⟨0, _⟩ => ⟨S2x2048x128, .f32⟩
  | .local _ .vmem, ⟨1, _⟩ => ⟨S2x2048x128, .f32⟩
  | .local _ .vmem, ⟨2, _⟩ => ⟨S2048x128, .f32⟩
  | .local _ .vmem, ⟨3, _⟩ => ⟨S2048x128, .f32⟩
  | .local _ .vmem, ⟨4, _⟩ => ⟨S128x512, .f32⟩
  | .local _ .vmem, ⟨5, _⟩ => ⟨S128x512, .f32⟩
  | .local _ .vmem, ⟨6, _⟩ => ⟨S2x2048x128, .f32⟩
  | .local _ .vmem, ⟨7, _⟩ => ⟨S2x2048x128, .f32⟩
  | _, _ => ⟨S2x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S128x128_S128x128_S128x128_S128x128_S128x512_d1 : Shape.Concatenates [S128x128, S128x128, S128x128, S128x128] S128x512 1
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  inb_S2x2048x128_S1x2048x128_1_0_0 : ∀ a, (![1, 0, 0] : Fin 3 → Nat) a + S1x2048x128.size a ≤ S2x2048x128.size a
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  shapeCasts_S2048x128_S1x2048x128 : S2048x128.ShapeCasts S1x2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x128.size a ≤ S2x131072x128.size a
  hwx0_0 : ∀ i : grid0.Coords, EltTy.bits .f32 = 32 ∨ (Rect.block (s := S2x131072x128) S2x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x2048x128.size a ≤ S2x131072x128.size a
  hwx0_4 : ∀ i : grid0.Coords, EltTy.bits .f32 = 32 ∨ (Rect.block (s := S2x131072x128) S2x2048x128.size (cc0_transform_4 i) (hinb0_4 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x131072x128 : Shape := ⟨3, ![2, 131072, 128]⟩
abbrev S131072x128 : Shape := ⟨2, ![131072, 128]⟩
abbrev S128x128 : Shape := ⟨2, ![128, 128]⟩
abbrev S1x131072x128 : Shape := ⟨3, ![1, 131072, 128]⟩
abbrev S128x512 : Shape := ⟨2, ![128, 512]⟩
abbrev S131072x512 : Shape := ⟨2, ![131072, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2x131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x131072x128, .f32⟩
  | .hbm, ⟨11, _⟩ => ⟨S131072x128, .f32⟩
  | .hbm, ⟨12, _⟩ => ⟨S1x131072x128, .f32⟩
  | .hbm, ⟨13, _⟩ => ⟨S131072x128, .f32⟩
  | .hbm, ⟨14, _⟩ => ⟨S128x512, .f32⟩
  | .hbm, ⟨15, _⟩ => ⟨S128x512, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S_, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S1x131072x128, .f32⟩
  | .hbm, ⟨54, _⟩ => ⟨S1x131072x128, .f32⟩
  | .hbm, ⟨55, _⟩ => ⟨S2x131072x128, .f32⟩
  | _, _ => ⟨S2x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x131072x128_S1x131072x128_0_0_0 : S2x131072x128.Slices ![0, 0, 0] S1x131072x128
  shapeCasts_S1x131072x128_S131072x128 : S1x131072x128.ShapeCasts S131072x128
  slices_S2x131072x128_S1x131072x128_1_0_0 : S2x131072x128.Slices ![1, 0, 0] S1x131072x128
  concatenates_S128x128_S128x128_S128x128_S128x128_S128x512_d1 : Shape.Concatenates [S128x128, S128x128, S128x128, S128x128] S128x512 1
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.CellFrameBits.lean ====
/-
  The frame of the LSTM-cell program. @main first lays the four input-weight matrices side by side into one
  [128, 512] matrix and the four recurrent-weight matrices into another, then runs the cell over 64 blocks of
  2048 batch rows. At each block the body reads the previous hidden and cell rows (planes 0 and 1 of the state
  block), the input rows and both weight matrices, and writes the new hidden rows into plane 0 and the new cell
  rows into plane 1 of the output block; the two planes tile the output block, so after the body the output's
  staging buffer is a function of the four input blocks alone, whatever it held before (the body also loads
  both output planes before storing them; the loaded values are used nowhere).
  From that: the program runs to its end from any memory, faults nowhere, leaves every argument array as it was,
  and leaves the result array at what the 64 write-backs put there (`run_main`, `frame`). Everything is stated at
  an arbitrary float family.
-/
import proofs.«152224_j5471788335349_1_alg».proof.Proof.Gen.Kernel.Launch
import proofs.«152224_j5471788335349_1_alg».proof.Proof.Gen.Kernel.Skeleton
import proofs.«152224_j5471788335349_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two concatenations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two concatenations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither concatenation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
/-- Neither concatenation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
/-- Neither concatenation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
/-- Neither concatenation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
/-- Neither concatenation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
/-- Neither concatenation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
/-- Neither concatenation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))
/-- Neither concatenation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, Finset.mem_singleton]
    repeat' apply And.intro
    all_goals exact StableHlo.devRef_ne_of_ne (by decide)))
/-- Neither concatenation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, Finset.mem_singleton]
    repeat' apply And.intro
    all_goals exact StableHlo.devRef_ne_of_ne (by decide)))
/-- Neither concatenation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a state where every array of the pipeline is at what the proof data computes and every other buffer as the
    region found it, the ten argument arrays are as launched: the state and input arrays are input windows, which no
    write-back touches; the eight weight matrices are staged by no window; and no concatenation writes any of the ten. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

/-- So a run to such states is a run that leaves the ten argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_of m dats hA r h c) h

/-! ## The body's accesses -/

/-- Plane 0 (hidden rows) and plane 1 (cell rows) of a state or output block; the whole input block; a whole weight matrix. -/
abbrev plane0 : Rect S2x2048x128 := Rect.unit (s := S2x2048x128) ![0, 0, 0] S1x2048x128.size inb_S2x2048x128_S1x2048x128_0_0_0
abbrev plane1 : Rect S2x2048x128 := Rect.unit (s := S2x2048x128) ![1, 0, 0] S1x2048x128.size inb_S2x2048x128_S1x2048x128_1_0_0
abbrev rowsAll : Rect S2048x128 := Rect.unit (s := S2048x128) ![0, 0] S2048x128.size inb_S2048x128_S2048x128_0_0
abbrev weightAll : Rect S128x512 := Rect.unit (s := S128x512) ![0, 0] S128x512.size inb_S128x512_S128x512_0_0

/-! ## What the body leaves in the output window's buffer -/

/-- The output block after the body, from the four input blocks: the new cell rows in plane 1 (stored last) over
    the new hidden rows in plane 0. -/
def cellOut (x0 : Vec F S2x2048x128 .f32) (x1 : Vec F S2048x128 .f32) (x2 : Vec F S128x512 .f32) (x3 : Vec F S128x512 .f32) : Vec F S2x2048x128 .f32 :=
  View.canon [⟨plane1, k0_pay4 (View.ld x0 plane0) (View.ld x0 plane1) (View.ld x1 rowsAll) (View.ld x2 weightAll) (View.ld x3 weightAll)⟩,
    ⟨plane0, k0_pay3 (View.ld x0 plane0) (View.ld x0 plane1) (View.ld x1 rowsAll) (View.ld x2 weightAll) (View.ld x3 weightAll)⟩]

/-- The two planes tile the block, so they cover it. -/
theorem cover_planes (p0 : Vec F S1x2048x128 .f32) (p1 : Vec F S1x2048x128 .f32) (y : S2x2048x128.Idx) :
    ∃ pc ∈ ([⟨plane1, p0⟩, ⟨plane0, p1⟩] : List (View.Piece (Elt F) S2x2048x128 .f32)), y ∈ pc.1.set :=
  View.cover_of_tiled [⟨plane1, p0⟩, ⟨plane0, p1⟩] S1x2048x128.size (by rfl) y

/-! ## The body's triple -/

set_option maxHeartbeats 1000000 in
/-- The body on whole staging memrefs, the four inputs' at contents `x0 … x3` and the output's at anything, runs to
    the continuation holding the inputs' as they were and the output's at `cellOut` of them. -/
theorem sound_kernel (c : Dev nD) (E : Set ℕ) (i : grid0.Coords)
    (arg1 : Memref sig .tc .vmem S2x2048x128 .f32) (harg1 : arg1.IsWhole) (arg2 : Memref sig .tc .vmem S2048x128 .f32) (harg2 : arg2.IsWhole)
    (arg3 : Memref sig .tc .vmem S128x512 .f32) (harg3 : arg3.IsWhole) (arg4 : Memref sig .tc .vmem S128x512 .f32) (harg4 : arg4.IsWhole)
    (arg5 : Memref sig .tc .vmem S2x2048x128 .f32) (harg5 : arg5.IsWhole)
    (x0 : Vec F S2x2048x128 .f32) (x1 : Vec F S2048x128 .f32) (x2 : Vec F S128x512 .f32) (x3 : Vec F S128x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (cellOut x0 x1 x2 x3)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_planes _ _)

/-! ## The pipeline's proof data -/

/-- The arrays as the region finds them; after the body at point `t` each input's buffer at its block and the
    output's at `cellOut` of the four input blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cellOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = cellOut (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes (the result array: its entry contents overwritten by
    the 64 blocks written back) and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, faults nowhere and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.CellFrame

end
-- ==== Proof.CellFrameIdeal.lean ====
/-
  The frame of the LSTM-cell program. @main first lays the four input-weight matrices side by side into one
  [128, 512] matrix and the four recurrent-weight matrices into another, then runs the cell over 64 blocks of
  2048 batch rows. At each block the body reads the previous hidden and cell rows (planes 0 and 1 of the state
  block), the input rows and both weight matrices, and writes the new hidden rows into plane 0 and the new cell
  rows into plane 1 of the output block; the two planes tile the output block, so after the body the output's
  staging buffer is a function of the four input blocks alone, whatever it held before (the body also loads
  both output planes before storing them; the loaded values are used nowhere).
  From that: the program runs to its end from any memory, faults nowhere, leaves every argument array as it was,
  and leaves the result array at what the 64 write-backs put there (`run_main`, `frame`). Everything is stated at
  an arbitrary float family.
-/
import proofs.«152224_j5471788335349_1_alg».proof.Proof.Gen.KernelIdeal.Launch
import proofs.«152224_j5471788335349_1_alg».proof.Proof.Gen.KernelIdeal.Skeleton
import proofs.«152224_j5471788335349_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two concatenations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two concatenations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither concatenation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
/-- Neither concatenation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
/-- Neither concatenation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
/-- Neither concatenation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
/-- Neither concatenation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
/-- Neither concatenation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
/-- Neither concatenation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))
/-- Neither concatenation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, Finset.mem_singleton]
    repeat' apply And.intro
    all_goals exact StableHlo.devRef_ne_of_ne (by decide)))
/-- Neither concatenation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, Finset.mem_singleton]
    repeat' apply And.intro
    all_goals exact StableHlo.devRef_ne_of_ne (by decide)))
/-- Neither concatenation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a state where every array of the pipeline is at what the proof data computes and every other buffer as the
    region found it, the ten argument arrays are as launched: the state and input arrays are input windows, which no
    write-back touches; the eight weight matrices are staged by no window; and no concatenation writes any of the ten. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

/-- So a run to such states is a run that leaves the ten argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_of m dats hA r h c) h

/-! ## The body's accesses -/

/-- Plane 0 (hidden rows) and plane 1 (cell rows) of a state or output block; the whole input block; a whole weight matrix. -/
abbrev plane0 : Rect S2x2048x128 := Rect.unit (s := S2x2048x128) ![0, 0, 0] S1x2048x128.size inb_S2x2048x128_S1x2048x128_0_0_0
abbrev plane1 : Rect S2x2048x128 := Rect.unit (s := S2x2048x128) ![1, 0, 0] S1x2048x128.size inb_S2x2048x128_S1x2048x128_1_0_0
abbrev rowsAll : Rect S2048x128 := Rect.unit (s := S2048x128) ![0, 0] S2048x128.size inb_S2048x128_S2048x128_0_0
abbrev weightAll : Rect S128x512 := Rect.unit (s := S128x512) ![0, 0] S128x512.size inb_S128x512_S128x512_0_0

/-! ## What the body leaves in the output window's buffer -/

/-- The output block after the body, from the four input blocks: the new cell rows in plane 1 (stored last) over
    the new hidden rows in plane 0. -/
def cellOut (x0 : Vec F S2x2048x128 .f32) (x1 : Vec F S2048x128 .f32) (x2 : Vec F S128x512 .f32) (x3 : Vec F S128x512 .f32) : Vec F S2x2048x128 .f32 :=
  View.canon [⟨plane1, k0_pay4 (View.ld x0 plane0) (View.ld x0 plane1) (View.ld x1 rowsAll) (View.ld x2 weightAll) (View.ld x3 weightAll)⟩,
    ⟨plane0, k0_pay3 (View.ld x0 plane0) (View.ld x0 plane1) (View.ld x1 rowsAll) (View.ld x2 weightAll) (View.ld x3 weightAll)⟩]

/-- The two planes tile the block, so they cover it. -/
theorem cover_planes (p0 : Vec F S1x2048x128 .f32) (p1 : Vec F S1x2048x128 .f32) (y : S2x2048x128.Idx) :
    ∃ pc ∈ ([⟨plane1, p0⟩, ⟨plane0, p1⟩] : List (View.Piece (Elt F) S2x2048x128 .f32)), y ∈ pc.1.set :=
  View.cover_of_tiled [⟨plane1, p0⟩, ⟨plane0, p1⟩] S1x2048x128.size (by rfl) y

/-! ## The body's triple -/

set_option maxHeartbeats 1000000 in
/-- The body on whole staging memrefs, the four inputs' at contents `x0 … x3` and the output's at anything, runs to
    the continuation holding the inputs' as they were and the output's at `cellOut` of them. -/
theorem sound_kernel (c : Dev nD) (E : Set ℕ) (i : grid0.Coords)
    (arg1 : Memref sig .tc .vmem S2x2048x128 .f32) (harg1 : arg1.IsWhole) (arg2 : Memref sig .tc .vmem S2048x128 .f32) (harg2 : arg2.IsWhole)
    (arg3 : Memref sig .tc .vmem S128x512 .f32) (harg3 : arg3.IsWhole) (arg4 : Memref sig .tc .vmem S128x512 .f32) (harg4 : arg4.IsWhole)
    (arg5 : Memref sig .tc .vmem S2x2048x128 .f32) (harg5 : arg5.IsWhole)
    (x0 : Vec F S2x2048x128 .f32) (x1 : Vec F S2048x128 .f32) (x2 : Vec F S128x512 .f32) (x3 : Vec F S128x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (cellOut x0 x1 x2 x3)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_planes _ _)

/-! ## The pipeline's proof data -/

/-- The arrays as the region finds them; after the body at point `t` each input's buffer at its block and the
    output's at `cellOut` of the four input blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cellOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = cellOut (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes (the result array: its entry contents overwritten by
    the 64 blocks written back) and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, faults nowhere and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.CellFrame

end
-- ==== Proof.Spec.lean ====
/-
  One step of an LSTM cell, as a function of the argument arrays, index by index, on the extended reals.
  A batch row `b` has an input vector `x b`, a previous hidden vector `h b` and a previous cell vector `c b`, each
  of length 128. With `W` and `U` the [128, 512] matrices whose four column blocks of width 128 belong to the
  input, forget, output and candidate gates, the row's pre-activations are
      z q = (∑ k, x b k · W k q) + (∑ k, h b k · U k q)            (q < 512),
  and for j < 128
      c' j = σ(z (128 + j)) · c b j + σ(z j) · tanh(z (384 + j)),     h' j = σ(z (256 + j)) · tanh(c' j),
  σ the logistic function. The result array stacks the new hidden rows (plane 0) on the new cell rows (plane 1),
  as the state array stacks the previous ones. Everything is stated for any number `n` of batch rows, so that a
  block of rows and the whole array are instances of one definition.
-/
import Idealize.ShloMosaic.PureOps.Ideal
import Idealize.ShloMosaic.Lib.ValueIdx

noncomputable section

namespace Cert.LstmCell

open Idealize.ShloMosaic Idealize.ShloMosaic.ValueIdx

/-- Column `j` of the input, forget, output and candidate gates' blocks of a [128, 512] weight matrix. -/
abbrev colI (j : Fin 128) : Fin 512 := ⟨j.val, by have := j.isLt; omega⟩
abbrev colF (j : Fin 128) : Fin 512 := ⟨128 + j.val, by have := j.isLt; omega⟩
abbrev colO (j : Fin 128) : Fin 512 := ⟨256 + j.val, by have := j.isLt; omega⟩
abbrev colC (j : Fin 128) : Fin 512 := ⟨384 + j.val, by have := j.isLt; omega⟩

/-- A row's pre-activation at gate column `q`: the input row against column `q` of `W` plus the previous hidden
    row against column `q` of `U`. -/
def gate (xr hr : Fin 128 → EReal) (W U : Fin 128 → Fin 512 → EReal) (q : Fin 512) : EReal :=
  (∑ k : Fin 128, xr k * W k q) + ∑ k : Fin 128, hr k * U k q

/-- The new cell entry: the forget gate times the previous cell entry plus the input gate times the candidate. -/
def cellC (xr hr : Fin 128 → EReal) (cp : EReal) (W U : Fin 128 → Fin 512 → EReal) (j : Fin 128) : EReal :=
  Ideal.logistic (gate xr hr W U (colF j)) * cp + Ideal.logistic (gate xr hr W U (colI j)) * Ideal.tanh (gate xr hr W U (colC j))

/-- The new hidden entry: the output gate times the hyperbolic tangent of the new cell entry. -/
def cellH (xr hr : Fin 128 → EReal) (cp : EReal) (W U : Fin 128 → Fin 512 → EReal) (j : Fin 128) : EReal :=
  Ideal.logistic (gate xr hr W U (colO j)) * Ideal.tanh (cellC xr hr cp W U j)

/-- Row `b` of an [n, 128] array; row `b` of plane `p` of a [2, n, 128] array; a [128, 512] array as a matrix. -/
abbrev rowOf {n : Nat} (A : FVec Ideal ⟨2, ![n, 128]⟩ .f32) (b : Fin n) : Fin 128 → EReal := fun k => A (ix2 b k)
abbrev planeRow {n : Nat} (A : FVec Ideal ⟨3, ![2, n, 128]⟩ .f32) (p : Fin 2) (b : Fin n) : Fin 128 → EReal := fun k => A (ix3 p b k)
abbrev matOf (A : FVec Ideal ⟨2, ![128, 512]⟩ .f32) : Fin 128 → Fin 512 → EReal := fun k q => A (ix2 k q)

/-- The new hidden entry and the new cell entry of row `b`, column `j`, from the state array `S` (previous hidden
    rows in plane 0, previous cell rows in plane 1), the input array `X` and the two weight matrices. -/
def newH {n : Nat} (S : FVec Ideal ⟨3, ![2, n, 128]⟩ .f32) (X : FVec Ideal ⟨2, ![n, 128]⟩ .f32) (W U : FVec Ideal ⟨2, ![128, 512]⟩ .f32)
    (b : Fin n) (j : Fin 128) : EReal :=
  cellH (rowOf X b) (planeRow S 0 b) (S (ix3 1 b j)) (matOf W) (matOf U) j
def newC {n : Nat} (S : FVec Ideal ⟨3, ![2, n, 128]⟩ .f32) (X : FVec Ideal ⟨2, ![n, 128]⟩ .f32) (W U : FVec Ideal ⟨2, ![128, 512]⟩ .f32)
    (b : Fin n) (j : Fin 128) : EReal :=
  cellC (rowOf X b) (planeRow S 0 b) (S (ix3 1 b j)) (matOf W) (matOf U) j

/-- The result array: plane 0 the new hidden rows, plane 1 the new cell rows. -/
def G {n : Nat} (S : FVec Ideal ⟨3, ![2, n, 128]⟩ .f32) (X : FVec Ideal ⟨2, ![n, 128]⟩ .f32) (W U : FVec Ideal ⟨2, ![128, 512]⟩ .f32) :
    FVec Ideal ⟨3, ![2, n, 128]⟩ .f32 :=
  fun i => if (i 0).val = 0 then newH S X W U (i 1) (i 2) else newC S X W U (i 1) (i 2)

theorem G_plane0 {n : Nat} (S : FVec Ideal ⟨3, ![2, n, 128]⟩ .f32) (X : FVec Ideal ⟨2, ![n, 128]⟩ .f32) (W U : FVec Ideal ⟨2, ![128, 512]⟩ .f32)
    (b : Fin n) (j : Fin 128) : G S X W U (ix3 0 b j) = newH S X W U b j := if_pos rfl
theorem G_plane1 {n : Nat} (S : FVec Ideal ⟨3, ![2, n, 128]⟩ .f32) (X : FVec Ideal ⟨2, ![n, 128]⟩ .f32) (W U : FVec Ideal ⟨2, ![128, 512]⟩ .f32)
    (b : Fin n) (j : Fin 128) : G S X W U (ix3 1 b j) = newC S X W U b j := if_neg (show ¬((1 : Fin 2).val = 0) by decide)

/-- The float word of `1.0` denotes the real number one. -/
theorem ofBits_one_f32 : Ideal.ofBits .f32 0x3F800000#32 = 1 := by
  simp [Ideal.ofBits, Ideal.ieee, -EReal.coe_mul]; norm_num

/-- The logistic function spelt with a negation, an exponential, a sum with the word of `1.0` and a quotient of it
    is the logistic function, at every extended real. -/
theorem logistic_spelt (z : EReal) :
    Ideal.div (Ideal.ofBits .f32 0x3F800000#32) (Ideal.ofBits .f32 0x3F800000#32 + Ideal.exp (-z)) = Ideal.logistic z := by
  rw [ofBits_one_f32]; rfl

end Cert.LstmCell

end
-- ==== Proof.KernelBlock.lean ====
/-
  What the kernel's body leaves in an output block, read at an index. From the loaded planes and blocks the body
  forms the two contractions into zero accumulators, which at the ideal values are plain sums over the 128
  contracted positions; adds them; slices the four gates' column blocks; applies the logistic function and the
  hyperbolic tangent; and stores the new hidden rows into plane 0 and the new cell rows into plane 1. So the block
  the body leaves is the cell of Spec.lean of the four input blocks, at 2048 rows.
-/
import proofs.«152224_j5471788335349_1_alg».proof.Proof.CellFrameIdeal
import proofs.«152224_j5471788335349_1_alg».proof.Proof.Spec
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen Cert.KernelIdeal.CellFrame Cert.LstmCell
open Idealize.ShloMosaic Idealize.ShloMosaic.TcCoe Idealize.ShloMosaic.ValueIdx Idealize.SL.Sem

/-! ## The contraction's operand indices -/

theorem dotL0 (i : S2048x512.Idx) (q : dot_S2048x128_S128x512_S2048x512_1_0_0_1_n_n.contr.Idx) : (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem dotL1 (i : S2048x512.Idx) (q : dot_S2048x128_S128x512_S2048x512_1_0_0_1_n_n.contr.Idx) : (dot_S2048x128_S128x512_S2048x512_1_0_0_1_n_n.lhsIdx i q 1).val = (q ⟨0, by decide⟩).val :=
  dot_S2048x128_S128x512_S2048x512_1_0_0_1_n_n.lhsIdx_val_of_single rfl i q
theorem dotR0 (i : S2048x512.Idx) (q : dot_S2048x128_S128x512_S2048x512_1_0_0_1_n_n.contr.Idx) : (dot_S2048x128_S128x512_S2048x512_1_0_0_1_n_n.rhsIdx i q 0).val = (q ⟨0, by decide⟩).val :=
  dot_S2048x128_S128x512_S2048x512_1_0_0_1_n_n.rhsIdx_val_of_single rfl i q
theorem dotR1 (i : S2048x512.Idx) (q : dot_S2048x128_S128x512_S2048x512_1_0_0_1_n_n.contr.Idx) : (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- A contraction into the zero accumulator, at row `r` and column `q`: the row of the left operand against the
    column of the right. -/
theorem matmul_at (l : FVec Ideal S2048x128 .f32) (w : FVec Ideal S128x512 .f32) (r : Fin 2048) (q : Fin 512) :
    matmul dot_S2048x128_S128x512_S2048x512_1_0_0_1_n_n none l w (constant (F := Ideal) S2048x512 .f32 0x00000000#32) (ix2 r q) = ∑ k : Fin 128, l (ix2 r k) * w (ix2 k q) := by
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 r q) ((ValueIdx.contrEquiv1 dot_S2048x128_S128x512_S2048x512_1_0_0_1_n_n 128 rfl rfl).symm k) = ix2 r k := funext fun a => Fin.ext (by
    match a with
    | ⟨0, _⟩ => exact dotL0 _ _
    | ⟨1, _⟩ => exact (dotL1 _ _).trans hk)
  have er : dot_S2048x128_S128x512_S2048x512_1_0_0_1_n_n.rhsIdx (ix2 r q) ((ValueIdx.contrEquiv1 dot_S2048x128_S128x512_S2048x512_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## Layout -/

/-- A plane cast to its rows, and rows cast to a plane. -/
theorem planeCast (v : FVec Ideal S1x2048x128 .f32) (h : S1x2048x128.ShapeCasts S2048x128) (r : Fin 2048) (k : Fin 128) :
    shapeCast S2048x128 v h (ix2 r k) = v (ix3 0 r k) :=
  (shapeCast_dropUnit_apply ![2048, 128] v h (ix2 r k)).trans
    (congrArg v (funext fun a => match a with | ⟨0, _⟩ => rfl | ⟨1, _⟩ => rfl | ⟨2, _⟩ => rfl))
theorem unitCast (w : FVec Ideal S2048x128 .f32) (h : S2048x128.ShapeCasts S1x2048x128) (r : Fin 2048) (j : Fin 128) :
    shapeCast S1x2048x128 w h (ix3 0 r j) = w (ix2 r j) :=
  (shapeCast_addUnit_apply ![2048, 128] w h (ix3 0 r j)).trans
    (congrArg w (funext fun a => match a with | ⟨0, _⟩ => rfl | ⟨1, _⟩ => rfl))

/-- The slice of width 128 at column offset `o`, at row `r` and column `j`, is column `o + j` of that row. -/
theorem sliceCols (z : FVec Ideal S2048x512 .f32) (o : Nat) (h : S2048x512.Slices ![0, o] S2048x128) (r : Fin 2048) (j : Fin 128)
    (q : Fin 512) (hq : q.val = o + j.val) : extractStridedSlice S2048x128 ![0, o] z h (ix2 r j) = z (ix2 r q) :=
  extractStridedSlice_apply ![0, o] z h (ix2 r j) (ix2 r q) (fun a => match a with
    | ⟨0, _⟩ => by show r.val = 0 + r.val; omega
    | ⟨1, _⟩ => hq)

/-! ## The payloads -/

section
variable (v0 v2 : Vec Ideal S1x2048x128 .f32) (v4 : Vec Ideal S2048x128 .f32) (v5 v8 : Vec Ideal S128x512 .f32)

/-- The rows' pre-activations. -/
theorem preact_apply (r : Fin 2048) (q : Fin 512) :
    k0_pay1 (F := Ideal) v0 v4 v5 v8 (ix2 r q)
      = gate (fun k => v4 (ix2 r k)) (fun k => v0 (ix3 0 r k)) (matOf v5) (matOf v8) q := by
  unfold k0_pay1 gate
  dsimp only
  rw [shapeCast_self, shapeCast_self]
  refine congrArg₂ (· + ·) ((matmul_at _ _ r q).trans rfl) ((matmul_at _ _ r q).trans ?_)
  refine Finset.sum_congr rfl fun k _ => ?_
  rw [planeCast]

/-- The new cell rows. -/
theorem cell_apply (r : Fin 2048) (j : Fin 128) :
    k0_pay2 (F := Ideal) v0 v2 v4 v5 v8 (ix2 r j)
      = cellC (fun k => v4 (ix2 r k)) (fun k => v0 (ix3 0 r k)) (v2 (ix3 0 r j)) (matOf v5) (matOf v8) j := by
  unfold k0_pay2 cellC
  show FloatOps.addf (FloatOps.mulf (FloatOps.logistic (extractStridedSlice S2048x128 ![0, 128] (k0_pay1 (F := Ideal) v0 v4 v5 v8) _ (ix2 r j)))
        (shapeCast S2048x128 v2 _ (ix2 r j)))
      (FloatOps.mulf (FloatOps.logistic (extractStridedSlice S2048x128 ![0, 0] (k0_pay1 (F := Ideal) v0 v4 v5 v8) _ (ix2 r j)))
        (FloatOps.tanh (extractStridedSlice S2048x128 ![0, 384] (k0_pay1 (F := Ideal) v0 v4 v5 v8) _ (ix2 r j)))) = _
  rw [sliceCols _ 128 _ r j (colF j) rfl, sliceCols _ 0 _ r j (colI j) (Nat.zero_add _).symm, sliceCols _ 384 _ r j (colC j) rfl,
    preact_apply, preact_apply, preact_apply, planeCast]
  rfl

/-- The new hidden rows, as stored into plane 0, -/
theorem hidden_apply (r : Fin 2048) (j : Fin 128) :
    k0_pay3 (F := Ideal) v0 v2 v4 v5 v8 (ix3 0 r j)
      = cellH (fun k => v4 (ix2 r k)) (fun k => v0 (ix3 0 r k)) (v2 (ix3 0 r j)) (matOf v5) (matOf v8) j := by
  unfold k0_pay3 cellH
  rw [unitCast]
  show FloatOps.mulf (FloatOps.logistic (extractStridedSlice S2048x128 ![0, 256] (k0_pay1 (F := Ideal) v0 v4 v5 v8) _ (ix2 r j)))
      (FloatOps.tanh (k0_pay2 (F := Ideal) v0 v2 v4 v5 v8 (ix2 r j))) = _
  rw [sliceCols _ 256 _ r j (colO j) rfl, preact_apply, cell_apply]
  rfl

/-- and the new cell rows, as stored into plane 1. -/
theorem cellPlane_apply (r : Fin 2048) (j : Fin 128) :
    k0_pay4 (F := Ideal) v0 v2 v4 v5 v8 (ix3 0 r j)
      = cellC (fun k => v4 (ix2 r k)) (fun k => v0 (ix3 0 r k)) (v2 (ix3 0 r j)) (matOf v5) (matOf v8) j := by
  unfold k0_pay4
  rw [unitCast, cell_apply]

end

/-! ## The output block -/

theorem zero2 : (![0, 0] : Fin 2 → Nat) = fun _ => 0 := funext fun a => by fin_cases a <;> rfl

/-- Where the two planes sit in a state or output block. -/
theorem plane0_emb (r : Fin 2048) (k : Fin 128) : plane0.emb (ix3 (0 : Fin 1) r k) = ix3 (0 : Fin 2) r k :=
  funext fun a => Fin.ext (by
    match a with
    | ⟨0, _⟩ => rfl
    | ⟨1, _⟩ => show 0 + 1 * r.val = r.val; omega
    | ⟨2, _⟩ => show 0 + 1 * k.val = k.val; omega)
theorem plane1_emb (r : Fin 2048) (k : Fin 128) : plane1.emb (ix3 (0 : Fin 1) r k) = ix3 (1 : Fin 2) r k :=
  funext fun a => Fin.ext (by
    match a with
    | ⟨0, _⟩ => rfl
    | ⟨1, _⟩ => show 0 + 1 * r.val = r.val; omega
    | ⟨2, _⟩ => show 0 + 1 * k.val = k.val; omega)

/-- The block the body leaves is the cell of the four input blocks, at 2048 rows. -/
theorem cellOut_eq (x0 : Vec Ideal S2x2048x128 .f32) (x1 : Vec Ideal S2048x128 .f32) (x2 x3 : Vec Ideal S128x512 .f32) (y : S2x2048x128.Idx) :
    cellOut (F := Ideal) x0 x1 x2 x3 y = G (n := 2048) x0 x1 x2 x3 y := by
  unfold cellOut
  refine View.canon_apply_of_pieces (Val := Elt Ideal) (S := S2x2048x128) (e := .f32) (G (n := 2048) x0 x1 x2 x3) _ ?_ y (cover_planes _ _ y)
  intro p hp x
  have hX : View.ld x1 rowsAll = x1 := View.ld_unit_zero zero2 _ x1
  have hW : View.ld x2 weightAll = x2 := View.ld_unit_zero zero2 _ x2
  have hU : View.ld x3 weightAll = x3 := View.ld_unit_zero zero2 _ x3
  have hH : ∀ (r : Fin 2048) (k : Fin 128), View.ld x0 plane0 (ix3 (0 : Fin 1) r k) = x0 (ix3 (0 : Fin 2) r k) :=
    fun r k => congrArg x0 (plane0_emb r k)
  have hC : ∀ (r : Fin 2048) (k : Fin 128), View.ld x0 plane1 (ix3 (0 : Fin 1) r k) = x0 (ix3 (1 : Fin 2) r k) :=
    fun r k => congrArg x0 (plane1_emb r k)
  rcases List.mem_cons.mp hp with rfl | hp
  · obtain ⟨u, r, j, rfl⟩ : ∃ (u : Fin 1) (r : Fin 2048) (j : Fin 128), x = ix3 u r j := ⟨x 0, x 1, x 2, eq_ix3 x⟩
    obtain rfl : u = 0 := Subsingleton.elim _ _
    show k0_pay4 (F := Ideal) _ _ _ _ _ (ix3 0 r j) = G (n := 2048) x0 x1 x2 x3 (plane1.emb (ix3 0 r j))
    rw [plane1_emb, G_plane1, cellPlane_apply, hX, hW, hU, hC]
    unfold newC
    exact congrArg (fun f => cellC _ f _ _ _ _) (funext fun k => hH r k)
  · obtain rfl : p = ⟨plane0, _⟩ := List.mem_singleton.mp hp
    obtain ⟨u, r, j, rfl⟩ : ∃ (u : Fin 1) (r : Fin 2048) (j : Fin 128), x = ix3 u r j := ⟨x 0, x 1, x 2, eq_ix3 x⟩
    obtain rfl : u = 0 := Subsingleton.elim _ _
    show k0_pay3 (F := Ideal) _ _ _ _ _ (ix3 0 r j) = G (n := 2048) x0 x1 x2 x3 (plane0.emb (ix3 0 r j))
    rw [plane0_emb, G_plane0, hidden_apply, hX, hW, hU, hC]
    unfold newH
    exact congrArg (fun f => cellH _ f _ _ _ _) (funext fun k => hH r k)

end Cert.KernelIdeal.CellValue

end
-- ==== Proof.KernelValue.lean ====
/-
  From blocks to the array. Point `t` of the grid handles batch rows 2048·t … 2048·t + 2047: its state, input and
  output blocks are those rows of their arrays, and both weight windows are the whole concatenated matrices at
  every point. A row's new hidden and cell entries depend on that row alone, so the block the body leaves at
  point `t` is the block at `t` of the cell of the whole arrays; the 64 blocks tile the result array; hence the
  result array ends holding the cell of the argument arrays and the two concatenated weight matrices.
-/
import proofs.«152224_j5471788335349_1_alg».proof.Proof.KernelBlock

set_option maxRecDepth 16384

noncomputable section

namespace Cert.KernelIdeal.CellValue

open Cert.KernelIdeal Cert.KernelIdeal.Gen Cert.KernelIdeal.CellFrame Cert.LstmCell
open Idealize.ShloMosaic Idealize.ShloMosaic.TcCoe Idealize.ShloMosaic.ValueIdx Idealize.SL.Sem
open Idealize.ShloMosaic.Pipeline (Dat)

/-! ## The index maps over the grid -/

/-- The printed index maps, decided over the 64 points: the state, input and output windows move along the batch
    axis with the point and sit at zero elsewhere; the weight windows do not move. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem point_lt (t : Fin cfg0.N) : t.val < 64 := lt_of_lt_of_eq t.isLt N_0

/-- Row `r` of point `t`'s blocks is row `2048·t + r` of the arrays. -/
def rowAt (t : Fin cfg0.N) (r : Fin 2048) : Fin 131072 := ⟨t.val * 2048 + r.val, by have := point_lt t; have := r.isLt; omega⟩

/-- Where each window's block at point `t` sits in its array. -/
theorem emb_state (t : Fin cfg0.N) (p : Fin 2) (r : Fin 2048) (k : Fin 128) :
    ((cfg0.win 0).blk t).view.emb (ix3 p r k) = ix3 p (rowAt t r) k := by
  obtain ⟨e0, e1, e2, -⟩ := idx_facts t
  funext a; apply Fin.ext
  match a with
  | ⟨0, _⟩ => show win0_0.index t (0 : Fin 3) * 2 + 1 * p.val = p.val; omega
  | ⟨1, _⟩ => show win0_0.index t (1 : Fin 3) * 2048 + 1 * r.val = t.val * 2048 + r.val; omega
  | ⟨2, _⟩ => show win0_0.index t (2 : Fin 3) * 128 + 1 * k.val = k.val; omega
theorem emb_input (t : Fin cfg0.N) (r : Fin 2048) (k : Fin 128) :
    ((cfg0.win 1).blk t).view.emb (ix2 r k) = ix2 (rowAt t r) k := by
  obtain ⟨-, -, -, e0, e1, -⟩ := idx_facts t
  funext a; apply Fin.ext
  match a with
  | ⟨0, _⟩ => show win0_1.index t (0 : Fin 2) * 2048 + 1 * r.val = t.val * 2048 + r.val; omega
  | ⟨1, _⟩ => show win0_1.index t (1 : Fin 2) * 128 + 1 * k.val = k.val; omega
theorem emb_weightW (t : Fin cfg0.N) (k : Fin 128) (q : Fin 512) :
    ((cfg0.win 2).blk t).view.emb (ix2 k q) = ix2 k q := by
  obtain ⟨-, -, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 512 + 1 * q.val = q.val; omega
theorem emb_weightU (t : Fin cfg0.N) (k : Fin 128) (q : Fin 512) :
    ((cfg0.win 3).blk t).view.emb (ix2 k q) = ix2 k q := by
  obtain ⟨-, -, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 512 + 1 * q.val = q.val; omega
theorem emb_result (t : Fin cfg0.N) (p : Fin 2) (r : Fin 2048) (j : Fin 128) :
    ((cfg0.win 4).blk t).view.emb (ix3 p r j) = ix3 p (rowAt t r) j := by
  obtain ⟨-, -, -, -, -, -, -, -, -, e0, e1, e2⟩ := idx_facts t
  funext a; apply Fin.ext
  match a with
  | ⟨0, _⟩ => show win0_4.index t (0 : Fin 3) * 2 + 1 * p.val = p.val; omega
  | ⟨1, _⟩ => show win0_4.index t (1 : Fin 3) * 2048 + 1 * r.val = t.val * 2048 + r.val; omega
  | ⟨2, _⟩ => show win0_4.index t (2 : Fin 3) * 128 + 1 * j.val = j.val; omega

/-! ## A block of the cell is the cell of the blocks -/

/-- The cell of the four blocks at point `t`, at an index of the output block, is the cell of the whole arrays at
    that index's place in the result array: a row's entries depend on that row only. -/
theorem G_block (A0 : FVec Ideal S2x131072x128 .f32) (A1 : FVec Ideal S131072x128 .f32) (A2 A3 : FVec Ideal S128x512 .f32)
    (t : Fin cfg0.N) (y : S2x2048x128.Idx) :
    G (n := 2048) (((cfg0.win 0).blk t).view.read (Elt Ideal) A0) (((cfg0.win 1).blk t).view.read (Elt Ideal) A1)
        (((cfg0.win 2).blk t).view.read (Elt Ideal) A2) (((cfg0.win 3).blk t).view.read (Elt Ideal) A3) y
      = G (n := 131072) A0 A1 A2 A3 (((cfg0.win 4).blk t).view.emb y) := by
  obtain ⟨p, r, j, rfl⟩ : ∃ (p : Fin 2) (r : Fin 2048) (j : Fin 128), y = ix3 p r j := ⟨y 0, y 1, y 2, eq_ix3 y⟩
  rw [emb_result]
  have hX : rowOf (n := 2048) (((cfg0.win 1).blk t).view.read (Elt Ideal) A1) r = rowOf A1 (rowAt t r) :=
    funext fun k => congrArg A1 (emb_input t r k)
  have hH : planeRow (n := 2048) (((cfg0.win 0).blk t).view.read (Elt Ideal) A0) 0 r = planeRow A0 0 (rowAt t r) :=
    funext fun k => congrArg A0 (emb_state t 0 r k)
  have hC : (((cfg0.win 0).blk t).view.read (Elt Ideal) A0) (ix3 1 r j) = A0 (ix3 1 (rowAt t r) j) :=
    congrArg A0 (emb_state t 1 r j)
  have hW : matOf (((cfg0.win 2).blk t).view.read (Elt Ideal) A2) = matOf A2 :=
    funext fun k => funext fun q => congrArg A2 (emb_weightW t k q)
  have hU : matOf (((cfg0.win 3).blk t).view.read (Elt Ideal) A3) = matOf A3 :=
    funext fun k => funext fun q => congrArg A3 (emb_weightU t k q)
  unfold G newH newC
  show (if p.val = 0 then _ else _) = (if p.val = 0 then _ else _)
  rw [hX, hH, hC, hW, hU]

/-! ## What each point writes back, and the array -/

variable (m : (ℓ : Loc nD τ sig) → Buf (Elt Ideal) ℓ) (ρ : Dev nD → PrngReg)

/-- What point `t` writes back is the block at `t` of the cell of the arrays as the region finds them. -/
theorem flushed_eq (c : Dev nD) (t : Fin cfg0.N) :
    (dats m 0 c).flushed 4 t
      = ((cfg0.win 4).blk t).view.read (Elt Ideal) (G (n := 131072) (V m c main_arg0) (V m c main_arg1) (V m c main_v0) (V m c main_v1)) := by
  show (cfg0.win 4).cut (grid0.coords t) ((dats m 0 c).after 4 t) = _
  rw [after4]
  funext y
  refine (cellOut_eq _ _ _ _ y).trans ?_
  unfold iblk
  exact G_block (V m c main_arg0) (V m c main_arg1) (V m c main_v0) (V m c main_v1) t y

/-- An index of the result array is in point `t`'s block iff each coordinate is in the block's range on its axis. -/
theorem mem_blk (t : Fin cfg0.N) (i : S2x131072x128.Idx) :
    i ∈ ((cfg0.win 4).blk t).view.set ↔ ∀ a : Fin 3, win0_4.index t a * S2x2048x128.size a ≤ (i a).val
      ∧ (i a).val < win0_4.index t a * S2x2048x128.size a + S2x2048x128.size a := by
  show i ∈ ((View.whole main_v2).slice (win0_4.rect t)).set ↔ _
  rw [View.set_slice_whole, Rect.mem_set_unit]
  exact Iff.rfl

/-- The 64 blocks cover the result array: row `b` lies in the block of point `b / 2048`. -/
theorem covered (i : S2x131072x128.Idx) : ∃ t : Fin cfg0.N, (cfg0.win 4).flush t = true ∧ i ∈ ((cfg0.win 4).blk t).view.set := by
  have h0 : (i 0).val < 2 := (i 0).isLt
  have h1 : (i 1).val < 131072 := (i 1).isLt
  have h2 : (i 2).val < 128 := (i 2).isLt
  have hN : grid0.N = 64 := N_0
  have ht : (i 1).val / 2048 < cfg0.N := by show (i 1).val / 2048 < grid0.N; rw [hN]; omega
  obtain ⟨-, -, -, -, -, -, -, -, -, e0, e1, e2⟩ := idx_facts ⟨(i 1).val / 2048, ht⟩
  have e1' : win0_4.index ⟨(i 1).val / 2048, ht⟩ (1 : Fin 3) = (i 1).val / 2048 := e1
  refine ⟨⟨(i 1).val / 2048, ht⟩, flush0_4 _, ?_⟩
  rw [mem_blk]
  intro a
  match a with
  | ⟨0, _⟩ =>
    show win0_4.index ⟨(i 1).val / 2048, ht⟩ (0 : Fin 3) * 2 ≤ (i 0).val ∧ (i 0).val < win0_4.index ⟨(i 1).val / 2048, ht⟩ (0 : Fin 3) * 2 + 2
    omega
  | ⟨1, _⟩ =>
    show win0_4.index ⟨(i 1).val / 2048, ht⟩ (1 : Fin 3) * 2048 ≤ (i 1).val ∧ (i 1).val < win0_4.index ⟨(i 1).val / 2048, ht⟩ (1 : Fin 3) * 2048 + 2048
    omega
  | ⟨2, _⟩ =>
    show win0_4.index ⟨(i 1).val / 2048, ht⟩ (2 : Fin 3) * 128 ≤ (i 2).val ∧ (i 2).val < win0_4.index ⟨(i 1).val / 2048, ht⟩ (2 : Fin 3) * 128 + 128
    omega

/-- The two concatenated weight matrices, as @main forms them from the launch memory. -/
def weightsW (c : Dev nD) : FVec Ideal S128x512 .f32 :=
  concatenate S128x512 1 [⟨S128x128, m ((c.tc : Thread nD τ).loc main_arg2)⟩, ⟨S128x128, m ((c.tc : Thread nD τ).loc main_arg3)⟩,
    ⟨S128x128, m ((c.tc : Thread nD τ).loc main_arg4)⟩, ⟨S128x128, m ((c.tc : Thread nD τ).loc main_arg5)⟩]
    concatenates_S128x128_S128x128_S128x128_S128x128_S128x512_d1
def weightsU (c : Dev nD) : FVec Ideal S128x512 .f32 :=
  concatenate S128x512 1 [⟨S128x128, m ((c.tc : Thread nD τ).loc main_arg6)⟩, ⟨S128x128, m ((c.tc : Thread nD τ).loc main_arg7)⟩,
    ⟨S128x128, m ((c.tc : Thread nD τ).loc main_arg8)⟩, ⟨S128x128, m ((c.tc : Thread nD τ).loc main_arg9)⟩]
    concatenates_S128x128_S128x128_S128x128_S128x128_S128x512_d1

/-- The region finds them in the two buffers the concatenations write. -/
theorem V_weightsW (c : Dev nD) : (V m c main_v0 : S128x512.Idx → EReal) = weightsW m c := by
  dsimp only [V, hostOps0]; after_results; rfl
theorem V_weightsU (c : Dev nD) : (V m c main_v1 : S128x512.Idx → EReal) = weightsU m c := by
  dsimp only [V, hostOps0]; after_results; rfl

/-- The result array after the run: the cell of the argument arrays and the concatenated weights. -/
theorem final (c : Dev nD) :
    (dats m 0 c).arrAt 4 cfg0.N
      = G (n := 131072) (m ((c.tc : Thread nD τ).loc main_arg0)) (m ((c.tc : Thread nD τ).loc main_arg1)) (weightsW m c) (weightsU m c) := by
  rw [← V_main_arg0 m c, ← V_main_arg1 m c, ← V_weightsW m c, ← V_weightsU m c]
  exact (dats m 0 c).arrAt_eq_of_cover 4 _ (fun t _ => flushed_eq m c t) covered

/-! ## The run, read -/

/-- Every weakly fair execution of the idealized kernel's program terminates with the result array at the cell of the
    argument arrays and the concatenated weights, and the ten argument arrays unchanged. -/
theorem run : θ_run defs (onTc (τ := τ) (main (F := Ideal))) ⟨m, fun _ => 0, ρ⟩ (fun r => ∀ c : Dev nD,
      r.2.mem ((c.tc : Thread nD τ).loc main_v2)
        = G (n := 131072) (m ((c.tc : Thread nD τ).loc main_arg0)) (m ((c.tc : Thread nD τ).loc main_arg1)) (weightsW m c) (weightsU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 4).trans (final m c), kept_of m (dats m) (A_eq m) r h c⟩) (run_main m ρ)

end Cert.KernelIdeal.CellValue

end
-- ==== Proof.RefIsCell.lean ====
/-
  The reference computes the cell of Spec.lean. Read one operation at a time: planes 0 and 1 of the state array
  are the previous hidden and cell rows; the two contractions against the concatenated weight matrices, added, are
  the rows' pre-activations; the four column slices of width 128 are the four gates' pre-activations; the host
  spells the logistic function as 1 / (1 + exp(−z)), which is the logistic function at every extended real; the
  rest is the cell's arithmetic as written, and the result stacks the new hidden rows on the new cell rows. The
  two concatenated weight matrices are carried as they are: the kernel's program forms the same two.
-/
import proofs.«152224_j5471788335349_1_alg».proof.Proof.Gen.ReferenceIdeal.Read
import proofs.«152224_j5471788335349_1_alg».proof.Proof.Spec

noncomputable section

namespace Cert.ReferenceIdeal.CellValue

open Cert.ReferenceIdeal Cert.ReferenceIdeal.Gen Cert.ReferenceIdeal.Read Cert.LstmCell
open Idealize.ShloMosaic Idealize.ShloMosaic.TcCoe Idealize.ShloMosaic.ValueIdx Idealize.SL.Sem Idealize.ShloMosaic.StableHlo

/-! ## Indices -/

theorem lhs6 (b : Fin 131072) (q : Fin 512) (k : Fin 128) : lidx_main_v6 (ix2 b q) k = ix2 b k :=
  funext fun a => match a with | ⟨0, _⟩ => rfl | ⟨1, _⟩ => rfl
theorem rhs6 (b : Fin 131072) (q : Fin 512) (k : Fin 128) : ridx_main_v6 (ix2 b q) k = ix2 k q :=
  funext fun a => match a with | ⟨0, _⟩ => rfl | ⟨1, _⟩ => rfl
theorem lhs7 (b : Fin 131072) (q : Fin 512) (k : Fin 128) : lidx_main_v7 (ix2 b q) k = ix2 b k :=
  funext fun a => match a with | ⟨0, _⟩ => rfl | ⟨1, _⟩ => rfl
theorem rhs7 (b : Fin 131072) (q : Fin 512) (k : Fin 128) : ridx_main_v7 (ix2 b q) k = ix2 k q :=
  funext fun a => match a with | ⟨0, _⟩ => rfl | ⟨1, _⟩ => rfl

/-- The four column slices read the gates' column blocks. -/
theorem sliceI (b : Fin 131072) (j : Fin 128) : idx_main_v9 (ix2 b j) = ix2 b (colI j) :=
  funext fun a => match a with | ⟨0, _⟩ => rfl | ⟨1, _⟩ => rfl
theorem sliceF (b : Fin 131072) (j : Fin 128) : idx_main_v10 (ix2 b j) = ix2 b (colF j) :=
  funext fun a => match a with | ⟨0, _⟩ => rfl | ⟨1, _⟩ => rfl
theorem sliceO (b : Fin 131072) (j : Fin 128) : idx_main_v11 (ix2 b j) = ix2 b (colO j) :=
  funext fun a => match a with | ⟨0, _⟩ => rfl | ⟨1, _⟩ => rfl
theorem sliceC (b : Fin 131072) (j : Fin 128) : idx_main_v12 (ix2 b j) = ix2 b (colC j) :=
  funext fun a => match a with | ⟨0, _⟩ => rfl | ⟨1, _⟩ => rfl

/-- Plane `p` of the state array, reshaped to [131072, 128], at row `b`, column `k`. -/
theorem planeIdx0 (b : Fin 131072) (k : Fin 128) : idx_main_v0 (idx_main_v1 (ix2 b k)) = ix3 0 b k := by
  have hb := b.isLt; have hk := k.isLt
  funext a
  match a with
  | ⟨0, _⟩ => rfl
  | ⟨1, _⟩ => exact Fin.ext (show (b.val * 128 + k.val) / 128 % 131072 = b.val by omega)
  | ⟨2, _⟩ => exact Fin.ext (show (b.val * 128 + k.val) % 128 = k.val by omega)
theorem planeIdx1 (b : Fin 131072) (k : Fin 128) : idx_main_v2 (idx_main_v3 (ix2 b k)) = ix3 1 b k := by
  have hb := b.isLt; have hk := k.isLt
  funext a
  match a with
  | ⟨0, _⟩ => rfl
  | ⟨1, _⟩ => exact Fin.ext (show (b.val * 128 + k.val) / 128 % 131072 = b.val by omega)
  | ⟨2, _⟩ => exact Fin.ext (show (b.val * 128 + k.val) % 128 = k.val by omega)

/-! ## Stages -/

/-- The previous hidden and cell rows. -/
theorem prevH (x0 : (⟨S2x131072x128, .f32⟩ : BufTy).Contents (Elt Ideal)) (b : Fin 131072) (k : Fin 128) :
    val_main_v1 (F := Ideal) x0 (ix2 b k) = x0 (ix3 0 b k) := by
  rw [val_main_v1_apply, val_main_v0_apply, planeIdx0]
theorem prevC (x0 : (⟨S2x131072x128, .f32⟩ : BufTy).Contents (Elt Ideal)) (b : Fin 131072) (k : Fin 128) :
    val_main_v3 (F := Ideal) x0 (ix2 b k) = x0 (ix3 1 b k) := by
  rw [val_main_v3_apply, val_main_v2_apply, planeIdx1]

/-- The sum of the two contractions is the rows' pre-activations. -/
theorem gates (x0 : (⟨S2x131072x128, .f32⟩ : BufTy).Contents (Elt Ideal)) (x1 : (⟨S131072x128, .f32⟩ : BufTy).Contents (Elt Ideal)) (x2 x3 x4 x5 x6 x7 x8 x9 : (⟨S128x128, .f32⟩ : BufTy).Contents (Elt Ideal)) (b : Fin 131072) (q : Fin 512) :
    val_main_v8 (F := Ideal) x0 x1 x2 x3 x4 x5 x6 x7 x8 x9 (ix2 b q)
      = gate (rowOf x1 b) (planeRow x0 0 b) (matOf (val_main_v4 (F := Ideal) x2 x3 x4 x5)) (matOf (val_main_v5 (F := Ideal) x6 x7 x8 x9)) q := by
  rw [val_main_v8_apply, val_main_v6_apply, val_main_v7_apply]
  unfold gate
  show (∑ k : Fin 128, _) + (∑ k : Fin 128, _) = _
  refine congrArg₂ (· + ·) (Finset.sum_congr rfl fun k _ => ?_) (Finset.sum_congr rfl fun k _ => ?_)
  · rw [lhs6, rhs6]
  · rw [lhs7, rhs7, prevH]

/-- The new cell rows. -/
theorem newCell (x0 : (⟨S2x131072x128, .f32⟩ : BufTy).Contents (Elt Ideal)) (x1 : (⟨S131072x128, .f32⟩ : BufTy).Contents (Elt Ideal)) (x2 x3 x4 x5 x6 x7 x8 x9 : (⟨S128x128, .f32⟩ : BufTy).Contents (Elt Ideal)) (b : Fin 131072) (j : Fin 128) :
    val_main_v34 (F := Ideal) x0 x1 x2 x3 x4 x5 x6 x7 x8 x9 (ix2 b j) = newC x0 x1 (val_main_v4 (F := Ideal) x2 x3 x4 x5) (val_main_v5 (F := Ideal) x6 x7 x8 x9) b j := by
  simp only [val_main_v34_apply, val_main_v32_apply, val_main_v33_apply, val_main_v24_apply, val_main_v18_apply, val_main_v31_apply,
    val_main_v23_apply, val_main_v17_apply, val_main_cst_2_apply, val_main_cst_0_apply, val_main_v22_apply, val_main_v16_apply,
    val_main_v21_apply, val_main_v15_apply, val_main_cst_1_apply, val_main_cst_apply, val_main_v20_apply, val_main_v14_apply,
    val_main_v19_apply, val_main_v13_apply, val_main_v10_apply, val_main_v9_apply, val_main_v12_apply,
    sliceI, sliceF, sliceC, gates, prevC]
  unfold newC cellC
  rw [← logistic_spelt (gate (rowOf x1 b) (planeRow x0 0 b) (matOf (val_main_v4 (F := Ideal) x2 x3 x4 x5)) (matOf (val_main_v5 (F := Ideal) x6 x7 x8 x9)) (colF j)),
    ← logistic_spelt (gate (rowOf x1 b) (planeRow x0 0 b) (matOf (val_main_v4 (F := Ideal) x2 x3 x4 x5)) (matOf (val_main_v5 (F := Ideal) x6 x7 x8 x9)) (colI j))]
  rfl

/-- The new hidden rows. -/
theorem newHidden (x0 : (⟨S2x131072x128, .f32⟩ : BufTy).Contents (Elt Ideal)) (x1 : (⟨S131072x128, .f32⟩ : BufTy).Contents (Elt Ideal)) (x2 x3 x4 x5 x6 x7 x8 x9 : (⟨S128x128, .f32⟩ : BufTy).Contents (Elt Ideal)) (b : Fin 131072) (j : Fin 128) :
    val_main_v36 (F := Ideal) x0 x1 x2 x3 x4 x5 x6 x7 x8 x9 (ix2 b j) = newH x0 x1 (val_main_v4 (F := Ideal) x2 x3 x4 x5) (val_main_v5 (F := Ideal) x6 x7 x8 x9) b j := by
  rw [val_main_v36_apply, val_main_v35_apply, newCell]
  simp only [val_main_v30_apply, val_main_v29_apply, val_main_cst_4_apply, val_main_v28_apply, val_main_v27_apply, val_main_cst_3_apply,
    val_main_v26_apply, val_main_v25_apply, val_main_v11_apply, sliceO, gates]
  unfold newH cellH newC
  rw [← logistic_spelt (gate (rowOf x1 b) (planeRow x0 0 b) (matOf (val_main_v4 (F := Ideal) x2 x3 x4 x5)) (matOf (val_main_v5 (F := Ideal) x6 x7 x8 x9)) (colO j))]
  rfl

/-! ## The result -/

/-- The reference's result array is the cell's result array of the arguments and the concatenated weights. -/
theorem result_eq (x0 : (⟨S2x131072x128, .f32⟩ : BufTy).Contents (Elt Ideal)) (x1 : (⟨S131072x128, .f32⟩ : BufTy).Contents (Elt Ideal)) (x2 x3 x4 x5 x6 x7 x8 x9 : (⟨S128x128, .f32⟩ : BufTy).Contents (Elt Ideal)) :
    val_main_v39 (F := Ideal) x0 x1 x2 x3 x4 x5 x6 x7 x8 x9 = G x0 x1 (val_main_v4 (F := Ideal) x2 x3 x4 x5) (val_main_v5 (F := Ideal) x6 x7 x8 x9) := by
  funext i
  obtain ⟨p, b, j, rfl⟩ : ∃ (p : Fin 2) (b : Fin 131072) (j : Fin 128), i = ix3 p b j := ⟨i 0, i 1, i 2, eq_ix3 i⟩
  unfold val_main_v39
  match p with
  | ⟨0, _⟩ =>
    refine (concatenate_pair_apply_left (t := S2x131072x128) (s₁ := S1x131072x128) (s₂ := S1x131072x128) (0 : Fin 3) (val_main_v37 (F := Ideal) x0 x1 x2 x3 x4 x5 x6 x7 x8 x9) (val_main_v38 (F := Ideal) x0 x1 x2 x3 x4 x5 x6 x7 x8 x9) concatenates_S1x131072x128_S1x131072x128_S2x131072x128_d0
      (ix3 (0 : Fin 2) b j) rfl (ix3 (0 : Fin 1) b j) (fun a => by match a with | ⟨0, _⟩ => rfl | ⟨1, _⟩ => rfl | ⟨2, _⟩ => rfl)).trans ?_
    rw [val_main_v37_apply]
    refine (congrArg _ (show idx_main_v37 (ix3 (0 : Fin 1) b j) = ix2 b j from
      funext fun a => match a with | ⟨0, _⟩ => rfl | ⟨1, _⟩ => rfl)).trans ?_
    exact (newHidden x0 x1 x2 x3 x4 x5 x6 x7 x8 x9 b j).trans (G_plane0 _ _ _ _ b j).symm
  | ⟨1, _⟩ =>
    refine (concatenate_pair_apply_right (t := S2x131072x128) (s₁ := S1x131072x128) (s₂ := S1x131072x128) (0 : Fin 3) (val_main_v37 (F := Ideal) x0 x1 x2 x3 x4 x5 x6 x7 x8 x9) (val_main_v38 (F := Ideal) x0 x1 x2 x3 x4 x5 x6 x7 x8 x9) concatenates_S1x131072x128_S1x131072x128_S2x131072x128_d0
      (ix3 (1 : Fin 2) b j) rfl rfl (ix3 (0 : Fin 1) b j)
      (fun a ha => by match a with | ⟨0, _⟩ => exact absurd rfl ha | ⟨1, _⟩ => rfl | ⟨2, _⟩ => rfl) rfl).trans ?_
    rw [val_main_v38_apply]
    refine (congrArg _ (show idx_main_v38 (ix3 (0 : Fin 1) b j) = ix2 b j from
      funext fun a => match a with | ⟨0, _⟩ => rfl | ⟨1, _⟩ => rfl)).trans ?_
    exact (newCell x0 x1 x2 x3 x4 x5 x6 x7 x8 x9 b j).trans (G_plane1 _ _ _ _ b j).symm

end Cert.ReferenceIdeal.CellValue

end
-- ==== Proof.lean ====
/-
  One step of an LSTM cell as a fused kernel, against its reference, over the extended reals.

  Both programs lay the four input-weight matrices side by side into one [128, 512] matrix W and the four
  recurrent-weight matrices into another, U. The reference then forms, for the whole batch of 131072 rows, the
  pre-activations x·W + h·U, slices the four gates' column blocks, applies the logistic function (spelt on the host
  as 1 / (1 + exp(−z))) and the hyperbolic tangent, and returns the new hidden rows stacked on the new cell rows,
      c' = σ(z_f)·c + σ(z_i)·tanh(z_c),    h' = σ(z_o)·tanh(c').
  The kernel does the same 2048 rows at a time over a grid of 64 points, its two contractions into zero accumulators.

  At the ideal values a contraction into a zero accumulator and the host's contraction are the same sum over the
  128 contracted positions, the host's spelling of the logistic function is the logistic function at every extended
  real, and a row's result depends on that row alone; so the 64 blocks the kernel writes back are the blocks of the
  one array the reference computes, and they tile it. No law of arithmetic beyond these identities is used, so the
  finiteness of the inputs is never opened.

  The frames: each kernel program (at the word level and idealized) runs its two concatenations and its 64 grid points
  to the end from any memory, and writes only the two concatenated matrices, its staging buffers and its result; the
  reference is a straight line of host operations writing buffers of their own. The ideal pass rewrote nothing, so
  the idealized kernel is the kernel's own text read at the ideal values.
-/
import proofs.«152224_j5471788335349_1_alg».proof.Defs
import proofs.«152224_j5471788335349_1_alg».proof.Proof.Gen.Kernel
import proofs.«152224_j5471788335349_1_alg».proof.Proof.Gen.KernelIdeal
import proofs.«152224_j5471788335349_1_alg».proof.Proof.Gen.ReferenceIdeal
import proofs.«152224_j5471788335349_1_alg».proof.Proof.Gen.Pre_finite_inputs
import proofs.«152224_j5471788335349_1_alg».proof.Proof.Gen.ReferenceIdeal.Run
import proofs.«152224_j5471788335349_1_alg».proof.Proof.Gen.ReferenceIdeal.Read
import proofs.«152224_j5471788335349_1_alg».proof.Proof.CellFrameBits
import proofs.«152224_j5471788335349_1_alg».proof.Proof.KernelValue
import proofs.«152224_j5471788335349_1_alg».proof.Proof.RefIsCell
import Idealize.ShloMosaic.Adequacy
import Idealize.ShloMosaic.Init

noncomputable section

namespace Cert.Proof

open Idealize.ShloMosaic Idealize.SL.Sem

/-- The word-level kernel program runs, faults nowhere and leaves its arguments unchanged. -/
theorem frame_kernel : Cert.frame_Kernel := fun m ρ _ => Cert.Kernel.CellFrame.frame m ρ

/-- So does the idealized one. -/
theorem frame_kernelIdeal : Cert.frame_KernelIdeal := fun m ρ _ => Cert.KernelIdeal.CellFrame.frame m ρ

/-- The reference is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the ten arguments both programs end with the result array at the cell of the state
    array, the input array and the two concatenated weight matrices: the kernel's by its 64 blocks, the reference's
    operation by operation; the two concatenations are one term of the agreeing weight arrays. -/
theorem algebraic : Cert.algebraic_KernelIdeal_ReferenceIdeal := by
  intro m ρ m' ρ' _ hagree
  refine ⟨fun c => Cert.LstmCell.G (n := 131072) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.KernelIdeal.CellValue.weightsW m c) (Cert.KernelIdeal.CellValue.weightsU m c),
    Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v39_eq, Cert.ReferenceIdeal.CellValue.result_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
